-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S513x1 : Shape := ⟨2, ![513, 1]⟩
abbrev S512x64 : Shape := ⟨2, ![512, 64]⟩
abbrev S512x1 : Shape := ⟨2, ![512, 1]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S513x1 : S_.BroadcastsInDim S513x1 (![] : Fin 0 → Fin S513x1.rank)
  reducesTo_S513x1_S_d0_1 : S513x1.ReducesTo [0, 1] S_
  bcast_S_S512x64 : S_.BroadcastsInDim S512x64 (![] : Fin 0 → Fin S512x64.rank)
  reducesTo_S512x64_S_d0_1 : S512x64.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S131072x64 .f32) (main_arg1 : FVec F S513x1 .f32) (main_arg2 : FVec F S512x64 .f32) (main_arg3 : FVec F S512x1 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S513x1 .f32 := Host.absf main_arg1
  let main_cst_0 : FVec F S_ .f32 := constant S_ .f32 0x7F800000#32
  let main_v5 : FVec F S513x1 .f32 := broadcastInDim S513x1 ![] bcast_S_S513x1 main_cst_0
  let main_v6 : IVec S513x1 1 := cmpf .olt main_v4 main_v5
  let main_c_1 : IVec S_ 1 := constantI S_ 1 1#1
  let main_v7 : IVec S_ 1 := (fun x v => Host.reduce IntOp.andi x v reducesTo_S513x1_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S131072x64 : Shape := ⟨2, ![131072, 64]⟩
abbrev S513x1 : Shape := ⟨2, ![513, 1]⟩
abbrev S512x64 : Shape := ⟨2, ![512, 64]⟩
abbrev S512x1 : Shape := ⟨2, ![512, 1]⟩
abbrev S131072x1 : Shape := ⟨2, ![131072, 1]⟩
abbrev S4096x64 : Shape := ⟨2, ![4096, 64]⟩
abbrev S4096x1 : Shape := ⟨2, ![4096, 1]⟩
abbrev S64x512 : Shape := ⟨2, ![64, 512]⟩
abbrev S4096x512 : Shape := ⟨2, ![4096, 512]⟩
abbrev S4096 : Shape := ⟨1, ![4096]⟩
abbrev S512 : Shape := ⟨1, ![512]⟩
abbrev S1x512 : Shape := ⟨2, ![1, 512]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S131072x64, .f32⟩
  | .hbm, ⟨1, _⟩ => ⟨S513x1, .f32⟩
  | .hbm, ⟨2, _⟩ => ⟨S512x64, .f32⟩
  | .hbm, ⟨3, _⟩ => ⟨S512x1, .f32⟩
  | .hbm, ⟨4, _⟩ => ⟨S131072x1, .f32⟩
  | .local _ .vmem, ⟨0, _⟩ => ⟨S4096x64, .f32⟩
  | .local _ .vmem, ⟨1, _⟩ => ⟨S4096x64, .f32⟩
  | .local _ .vmem, ⟨2, _⟩ => ⟨S512x64, .f32⟩
  | .local _ .vmem, ⟨3, _⟩ => ⟨S512x1, .f32⟩
  | .local _ .vmem, ⟨4, _⟩ => ⟨S513x1, .f32⟩
  | .local _ .vmem, ⟨5, _⟩ => ⟨S4096x1, .f32⟩
  | .local _ .vmem, ⟨6, _⟩ => ⟨S4096x1, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S513x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  inb_S512x1_S512x1_0_0 : ∀ a, (![0, 0] : Fin 2 → Nat) a + S512x1.size a ≤ S512x1.size a
  h_S512x1 : 0 < S512x1.numel
  inb_S513x1_S513x1_0_0 : ∀ a, (![0, 0] : Fin 2 → Nat) a + S513x1.size a ≤ S513x1.size a
  h_S513x1 : 0 < S513x1.numel
  bitsLt_bf16_f32 : FTy.bits .bf16 < FTy.bits .f32
  transposes_S512x64_p1_0_S64x512 : S512x64.Transposes [1, 0] S64x512
  reduces_S4096x64_S4096 : S4096x64.Reduces [1] S4096
  shapeCasts_S4096_S4096x1 : S4096.ShapeCasts S4096x1
  reduces_S512x64_S512 : S512x64.Reduces [1] S512
  shapeCasts_S512_S512x1 : S512.ShapeCasts S512x1
  transposes_S512x1_p1_0_S1x512 : S512x1.Transposes [1, 0] S1x512
  broadcasts_S4096x1_S4096x512 : S4096x1.Broadcasts S4096x512
  broadcasts_S1x512_S4096x512 : S1x512.Broadcasts S4096x512
  slices_S513x1_o0_0_S512x1 : S513x1.Slices ![0, 0] S512x1
  slices_S513x1_o512_0_S1x1 : S513x1.Slices ![512, 0] S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x64_S64x512_S4096x512_1_0_0_1_n_n_wf : DotDims.WF S4096x64 S64x512 S4096x512 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513x1.size a ≤ S513x1.size a
  hwx0_3 : ∀ i : grid0.Coords, EltTy.bits .f32 = 32 ∨ (Rect.block (s := S513x1) S513x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S131072x1.size a
  hwx0_4 : ∀ i : grid0.Coords, EltTy.bits .f32 = 32 ∨ (Rect.block (s := S131072x1) S4096x1.size (cc0_transform_4 i) (hinb0_4 i)).WholeWords (EltTy.packing .f32)

variable [Facts₀]

def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S513x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x64 : Shape := ⟨2, ![131072, 64]⟩
abbrev S513x1 : Shape := ⟨2, ![513, 1]⟩
abbrev S512x64 : Shape := ⟨2, ![512, 64]⟩
abbrev S512x1 : Shape := ⟨2, ![512, 1]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S64x512 : Shape := ⟨2, ![64, 512]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S513x1, .f32⟩
  | .hbm, ⟨2, _⟩ => ⟨S512x64, .f32⟩
  | .hbm, ⟨3, _⟩ => ⟨S512x1, .f32⟩
  | .hbm, ⟨4, _⟩ => ⟨S131072x64, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S512x64, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S64x512, .f32⟩
  | .hbm, ⟨16, _⟩ => ⟨S131072x512, .f32⟩
  | .hbm, ⟨17, _⟩ => ⟨S_, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S512, .f32⟩
  | .hbm, ⟨23, _⟩ => ⟨S512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S512x1, .f32⟩
  | .hbm, ⟨32, _⟩ => ⟨S131072x1, .f32⟩
  | .hbm, ⟨33, _⟩ => ⟨S1x1, .f32⟩
  | .hbm, ⟨34, _⟩ => ⟨S131072x1, .f32⟩
  | .hbm, ⟨35, _⟩ => ⟨S131072x1, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x64_S64x512_1_0 : S512x64.Transposes [1, 0] S64x512
  bcast_S_S131072x512 : S_.BroadcastsInDim S131072x512 (![] : Fin 0 → Fin S131072x512.rank)
  shapeCasts_S512x1_S512 : S512x1.ShapeCasts S512
  bcast_S_S1x512 : S_.BroadcastsInDim S1x512 (![] : Fin 0 → Fin S1x512.rank)
  slices_S513x1_S512x1_0_0 : S513x1.Slices ![0, 0] S512x1
  slices_S513x1_S1x1_512_0 : S513x1.Slices ![512, 0] S1x1
  bcast_S1x1_S131072x1_0_1 : S1x1.BroadcastsInDim S131072x1 (![0, 1] : Fin 2 → Fin S131072x1.rank)
  dot_S131072x64_S64x512_S131072x512_1_0_0_1_n_n_wf : DotDims.WF S131072x64 S64x512 S131072x512 [1] [0] [0] [1] [] []
  dot_S131072x512_S512x1_S131072x1_1_0_0_1_n_n_wf : DotDims.WF S131072x512 S512x1 S131072x1 [1] [0] [0] [1] [] []

variable [Facts₀]

def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x512_S512x1_S131072x1_1_0_0_1_n_n : DotDims S131072x512 S512x1 S131072x1 where
  lhsContracting := [1]
  rhsContracting := [0]
  lhsNonContracting := [0]
  rhsNonContracting := [1]
  lhsBatch := []
  rhsBatch := []
  wf := dot_S131072x512_S512x1_S131072x1_1_0_0_1_n_n_wf

class Facts : Prop extends Facts₀ where

variable [Facts]
-- ==== Proof.RbfSpec.lean ====
/-
  The radial-basis layer as one function of its four argument arrays, over the extended reals.

  For a row x of the input (64 features), centres c (512 rows of 64), widths σ (512) and weights w (512 and a
  bias in position 512), the output entry of that row is

      Σ_h exp( -(‖x‖² + ‖c_h‖² - 2·⟨x, c_h⟩) / (2·σ_h²) ) · w_h  +  w_512 ,

  the squared distance written by expansion. The factor 2 is the float word 0x40000000 on both sides and is
  never evaluated. Both programs compute exactly this, entry by entry.
-/
import Idealize.ShloMosaic.PureOps.Ideal
import Idealize.ShloMosaic.Lib.ValueIdx

noncomputable section

open scoped BigOperators

namespace Rbf

open Idealize.ShloMosaic Idealize.ShloMosaic.ValueIdx

/-- The factor two, as the float word both programs print. -/
abbrev two : EReal := Ideal.ofBits .f32 0x40000000#32

/-- The squared distance of the row `xr` from centre `h`, by expansion:
    the row's square norm plus the centre's square norm, minus twice their inner product. -/
def sqdist (xr : Fin 64 → EReal) (c : (⟨2, ![512, 64]⟩ : Shape).Idx → EReal) (h : Fin 512) : EReal :=
  ((∑ k : Fin 64, xr k * xr k) + ∑ k : Fin 64, c (ix2 h k) * c (ix2 h k)) - two * ∑ k : Fin 64, xr k * c (ix2 h k)

/-- The Gaussian weight of centre `h` for the row `xr`: exp of minus the squared distance over twice the squared width. -/
def phi (xr : Fin 64 → EReal) (c : (⟨2, ![512, 64]⟩ : Shape).Idx → EReal) (σ : (⟨2, ![512, 1]⟩ : Shape).Idx → EReal)
    (h : Fin 512) : EReal :=
  Ideal.exp (Ideal.div (-(sqdist xr c h)) (two * (σ (ix2 h 0) * σ (ix2 h 0))))

/-- Weight `h` of the 513-entry weight column (its first 512 entries). -/
abbrev wAt (w : (⟨2, ![513, 1]⟩ : Shape).Idx → EReal) (h : Fin 512) : EReal :=
  w (ix2 (⟨h.val, Nat.lt_succ_of_lt h.isLt⟩ : Fin 513) (0 : Fin 1))

/-- The bias: the last entry of the weight column. -/
abbrev bias (w : (⟨2, ![513, 1]⟩ : Shape).Idx → EReal) : EReal :=
  w (ix2 (⟨512, Nat.lt_succ_self 512⟩ : Fin 513) (0 : Fin 1))

/-- The output entry of the row `xr`: the weighted sum of its Gaussian weights, plus the bias. -/
def rowOut (xr : Fin 64 → EReal) (c : (⟨2, ![512, 64]⟩ : Shape).Idx → EReal) (σ : (⟨2, ![512, 1]⟩ : Shape).Idx → EReal)
    (w : (⟨2, ![513, 1]⟩ : Shape).Idx → EReal) : EReal :=
  (∑ h : Fin 512, phi xr c σ h * wAt w h) + bias w

/-- The whole result: entry (n, ·) is the output entry of row n of the input. -/
def G (x : (⟨2, ![131072, 64]⟩ : Shape).Idx → EReal) (w : (⟨2, ![513, 1]⟩ : Shape).Idx → EReal)
    (c : (⟨2, ![512, 64]⟩ : Shape).Idx → EReal) (σ : (⟨2, ![512, 1]⟩ : Shape).Idx → EReal) :
    (⟨2, ![131072, 1]⟩ : Shape).Idx → EReal :=
  fun i => rowOut (fun k => x (ix2 (i 0) k)) c σ w

end Rbf

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.RbfPieces.lean ====
/-
  The four computed pieces of the kernel body's value, each read at an entry (p, h) of the 4096 × 512 tile
  of one grid point (p a row of the input block, h a centre), over the extended reals:

    * the inner product of row p of the block with centre h — a matrix product of the block with the
      transposed centres into a zero accumulator, the narrowing of both operands being the identity here;
    * the square norm of row p — a lane sum of the squared block, viewed as a column and spread along the row;
    * the square norm of centre h — a lane sum of the squared centres, viewed as a column, transposed to a row
      and spread down the rows;
    * twice the squared width of centre h — the squared width column transposed to a row, doubled, spread down.
-/
import proofs.«160662_j58875411694167_1_alg».proof.Proof.Gen.KernelIdeal
import proofs.«160662_j58875411694167_1_alg».proof.Proof.RbfSpec
import proofs.«160662_j58875411694167_1_alg».proof.Proof.LibKeepdims
import proofs.«160662_j58875411694167_1_alg».proof.Proof.LibPlainDot
import Idealize.ShloMosaic.Lib.ValueLayout
import Idealize.ShloMosaic.Lib.Pipeline.Value

noncomputable section

open scoped BigOperators

namespace Cert.KernelIdeal.RbfValue

open Cert.KernelIdeal Cert.KernelIdeal.Gen Idealize.ShloMosaic Idealize.ShloMosaic.ValueIdx

/-- The body's first product has the plain dimension numbers: rows by the contracted axis, times the contracted
    axis by columns. -/
theorem dotXC_eq : dot_S4096x64_S64x512_S4096x512_1_0_0_1_n_n = DotDims.plain 4096 64 512 := rfl

/-- So has its second. -/
theorem dotPW_eq : dot_S4096x512_S512x1_S4096x1_1_0_0_1_n_n = DotDims.plain 4096 512 1 := rfl

/-- Entry (p, h) of the product of the block with the transposed centres is the inner product of row p with centre h. -/
theorem inner_apply (x0 : FVec Ideal S4096x64 .f32) (x1 : FVec Ideal S512x64 .f32) (p : Fin 4096) (h : Fin 512) :
    matmul dot_S4096x64_S64x512_S4096x512_1_0_0_1_n_n none (truncf .bf16 x0 bitsLt_bf16_f32)
        (transpose S64x512 [1, 0] (truncf .bf16 x1 bitsLt_bf16_f32) transposes_S512x64_p1_0_S64x512)
        (constant S4096x512 .f32 0x00000000#32) (ix2 p h)
      = ∑ k : Fin 64, x0 (ix2 p k) * x1 (ix2 h k) := by
  rw [dotXC_eq]
  refine (PlainDot.matmul_zero_apply 4096 64 512 _ _ _).trans ?_
  refine Finset.sum_congr rfl fun k _ => ?_
  refine congrArg (x0 (ix2 p k) * ·) ?_
  exact transpose_ix2_apply (truncf .bf16 x1 bitsLt_bf16_f32) transposes_S512x64_p1_0_S64x512 k h

/-- Entry (p, h) of the row norms spread along the rows is the square norm of row p of the block. -/
theorem rowNorm_apply (x0 : FVec Ideal S4096x64 .f32) (p : Fin 4096) (h : Fin 512) :
    broadcastTo S4096x512 (shapeCast S4096x1 (multiReduction .add [1] S4096 (mulf x0 x0) 0x00000000#32 reduces_S4096x64_S4096 (.inl rfl) rfl)
        shapeCasts_S4096_S4096x1) broadcasts_S4096x1_S4096x512 (ix2 p h)
      = ∑ k : Fin 64, x0 (ix2 p k) * x0 (ix2 p k) := by
  refine (Keepdims.broadcastTo_a1_ab_apply _ broadcasts_S4096x1_S4096x512 p h).trans ?_
  refine (Keepdims.shapeCast_a_a1_apply _ shapeCasts_S4096_S4096x1 p 0).trans ?_
  exact Keepdims.laneSum_apply (mulf x0 x0) 0x00000000#32 reduces_S4096x64_S4096 (.inl rfl) rfl p

/-- Entry (p, h) of the centre norms, turned into a row and spread down the rows, is the square norm of centre h. -/
theorem centreNorm_apply (x1 : FVec Ideal S512x64 .f32) (p : Fin 4096) (h : Fin 512) :
    broadcastTo S4096x512 (transpose S1x512 [1, 0] (shapeCast S512x1 (multiReduction .add [1] S512 (mulf x1 x1) 0x00000000#32 reduces_S512x64_S512 (.inl rfl) rfl)
        shapeCasts_S512_S512x1) transposes_S512x1_p1_0_S1x512) broadcasts_S1x512_S4096x512 (ix2 p h)
      = ∑ k : Fin 64, x1 (ix2 h k) * x1 (ix2 h k) := by
  refine (broadcastTo_1b_ab_apply _ broadcasts_S1x512_S4096x512 p h).trans ?_
  refine (transpose_ix2_apply _ transposes_S512x1_p1_0_S1x512 (0 : Fin 1) h).trans ?_
  refine (Keepdims.shapeCast_a_a1_apply _ shapeCasts_S512_S512x1 h 0).trans ?_
  exact Keepdims.laneSum_apply (mulf x1 x1) 0x00000000#32 reduces_S512x64_S512 (.inl rfl) rfl h

/-- Entry (p, h) of the doubled squared widths, as a row spread down the rows, is twice the squared width of centre h. -/
theorem width_apply (x2 : FVec Ideal S512x1 .f32) (p : Fin 4096) (h : Fin 512) :
    broadcastTo S4096x512 (mulf (broadcast S1x512 (Scalar.ofBits (F := Ideal) .f32 0x40000000#32))
        (transpose S1x512 [1, 0] (mulf x2 x2) transposes_S512x1_p1_0_S1x512)) broadcasts_S1x512_S4096x512 (ix2 p h)
      = Rbf.two * (x2 (ix2 h 0) * x2 (ix2 h 0)) := by
  refine (broadcastTo_1b_ab_apply _ broadcasts_S1x512_S4096x512 p h).trans ?_
  refine congrArg (Rbf.two * ·) ?_
  exact transpose_ix2_apply (mulf x2 x2) transposes_S512x1_p1_0_S1x512 (0 : Fin 1) h

end Cert.KernelIdeal.RbfValue

end
-- ==== Proof.RbfPayload.lean ====
/-
  The kernel body's value at an entry. For one grid point the body holds a block of 4096 rows of the input and
  the whole of the centres, widths and weights; its one store writes a 4096 × 1 column. Entry (p, ·) of that
  column is the output entry of row p of the block (RbfSpec's `rowOut`):

    * the 4096 × 512 tile of Gaussian weights at (p, h) is exp of ( 0 − ((‖x_p‖² + ‖c_h‖²) − 2·⟨x_p, c_h⟩) ) over
      2·σ_h², and 0 − y is −y on the extended reals;
    * the product of that tile with the first 512 weights, into a zero accumulator, is the sum over h of the weight
      at (p, h) times w_h — narrowing the operands is the identity here;
    * the bias is entry 512 of the weight column, spread down the rows.
-/
import proofs.«160662_j58875411694167_1_alg».proof.Proof.Gen.KernelIdeal.Skeleton
import proofs.«160662_j58875411694167_1_alg».proof.Proof.RbfPieces

noncomputable section

open scoped BigOperators

namespace Cert.KernelIdeal.RbfValue

open Cert.KernelIdeal Cert.KernelIdeal.Gen Idealize.ShloMosaic Idealize.ShloMosaic.ValueIdx

/-- Pointwise, at any entry: exp of ((0 − ((A + B) − 2·C)) / D) is exp of (−((A + B) − 2·C) / D). -/
theorem gauss_apply {s : Shape} (A B C D : FVec Ideal s .f32) (i : s.Idx) :
    exp (divf (subf (broadcast s (FloatOps.ofBits (F := Ideal) .f32 0x00000000#32))
        (subf (addf A B) (mulf (broadcast s (FloatOps.ofBits (F := Ideal) .f32 0x40000000#32)) C))) D) i
      = Ideal.exp (Ideal.div (-((A i + B i) - Rbf.two * C i)) (D i)) := by
  show Ideal.exp (Ideal.div (Ideal.ofBits .f32 0x00000000#32 - ((A i + B i) - Rbf.two * C i)) (D i)) = _
  rw [Ideal.ofBits_zero_f32, zero_sub]

/-- The tile of Gaussian weights at (p, h) is the weight of centre h for row p of the block. -/
theorem weight_apply (x0 : FVec Ideal S4096x64 .f32) (x1 : FVec Ideal S512x64 .f32) (x2 : FVec Ideal S512x1 .f32)
    (p : Fin 4096) (h : Fin 512) :
    exp (divf (subf (broadcast S4096x512 (FloatOps.ofBits (F := Ideal) .f32 0x00000000#32))
        (subf
          (addf
            (broadcastTo S4096x512 (shapeCast S4096x1 (multiReduction .add [1] S4096 (mulf x0 x0) 0x00000000#32 reduces_S4096x64_S4096 (.inl rfl) rfl)
              shapeCasts_S4096_S4096x1) broadcasts_S4096x1_S4096x512)
            (broadcastTo S4096x512 (transpose S1x512 [1, 0] (shapeCast S512x1 (multiReduction .add [1] S512 (mulf x1 x1) 0x00000000#32 reduces_S512x64_S512 (.inl rfl) rfl)
              shapeCasts_S512_S512x1) transposes_S512x1_p1_0_S1x512) broadcasts_S1x512_S4096x512))
          (mulf (broadcast S4096x512 (FloatOps.ofBits (F := Ideal) .f32 0x40000000#32))
            (matmul dot_S4096x64_S64x512_S4096x512_1_0_0_1_n_n none (truncf .bf16 x0 bitsLt_bf16_f32)
              (transpose S64x512 [1, 0] (truncf .bf16 x1 bitsLt_bf16_f32) transposes_S512x64_p1_0_S64x512)
              (constant S4096x512 .f32 0x00000000#32)))))
        (broadcastTo S4096x512 (mulf (broadcast S1x512 (FloatOps.ofBits (F := Ideal) .f32 0x40000000#32))
          (transpose S1x512 [1, 0] (mulf x2 x2) transposes_S512x1_p1_0_S1x512)) broadcasts_S1x512_S4096x512)) (ix2 p h)
      = Rbf.phi (fun k => x0 (ix2 p k)) x1 x2 h := by
  refine (gauss_apply _ _ _ _ _).trans ?_
  unfold Rbf.phi Rbf.sqdist
  exact congrArg Ideal.exp (congrArg₂ Ideal.div
    (congrArg Neg.neg (congrArg₂ (· - ·)
      (congrArg₂ (· + ·) (rowNorm_apply x0 p h) (centreNorm_apply x1 p h))
      (congrArg (Rbf.two * ·) (inner_apply x0 x1 p h))))
    (width_apply x2 p h))

/-- THE PAYLOAD AT AN ENTRY: entry (p, ·) of what the body stores is the output entry of row p of its input block. -/
theorem pay_apply (x0 : FVec Ideal S4096x64 .f32) (x1 : FVec Ideal S512x64 .f32) (x2 : FVec Ideal S512x1 .f32)
    (x3 : FVec Ideal S513x1 .f32) (p : Fin 4096) (u : Fin 1) :
    k0_pay1 (F := Ideal) x0 x1 x2 x3 (ix2 p u) = Rbf.rowOut (fun k => x0 (ix2 p k)) x1 x2 x3 := by
  unfold k0_pay1
  dsimp only
  refine (addf_apply _ _ _).trans ?_
  unfold Rbf.rowOut
  refine congrArg₂ (· + ·) ?_ ?_
  · rw [dotPW_eq]
    refine (PlainDot.matmul_zero_apply 4096 512 1 _ _ _).trans ?_
    refine Finset.sum_congr rfl fun h _ => ?_
    refine congrArg₂ (· * ·) ?_ ?_
    · refine (truncf_apply (ψ := .bf16) _ bitsLt_bf16_f32 _).trans ?_
      exact weight_apply x0 x1 x2 p h
    · refine (truncf_apply (ψ := .bf16) _ bitsLt_bf16_f32 _).trans ?_
      refine (slice2_axis0_apply 0 x3 slices_S513x1_o0_0_S512x1 h _ ⟨h.val, Nat.lt_succ_of_lt h.isLt⟩ (Nat.zero_add _).symm).trans ?_
      exact congrArg (fun e : Fin 1 => x3 (ix2 (⟨h.val, Nat.lt_succ_of_lt h.isLt⟩ : Fin 513) e)) (Subsingleton.elim _ _)
  · refine (broadcastTo_apply _ broadcasts_S1x1_S4096x1 (ix2 p u) (ix2 (0 : Fin 1) (0 : Fin 1)) fun a => ?_).trans ?_
    · match a with
      | ⟨0, _⟩ => rfl
      | ⟨1, _⟩ => rfl
    · exact slice2_axis0_apply 512 x3 slices_S513x1_o512_0_S1x1 (0 : Fin 1) (0 : Fin 1) ⟨512, Nat.lt_succ_self 512⟩ rfl

end Cert.KernelIdeal.RbfValue

end
-- ==== Proof.RbfBlocks.lean ====
/-
  From blocks to the array. The grid has 32 points; point t holds rows 4096·t … 4096·t + 4095 of the input and
  the whole of the centres, widths and weights, and writes back rows 4096·t … 4096·t + 4095 of the result column.

    * An input block read at a local index is the argument array at the block's offset plus the local index: for the
      input, row 4096·t + p; for the three small arrays, whose one block is the whole array, the index itself.
    * So what point t writes back is block t of the specification `Rbf.G` of the four argument arrays (the payload at
      an entry is the row's output, RbfPayload).
    * Every row n of the result lies in the block of point n / 4096, so the blocks cover the array, and the result
      array after the run is `Rbf.G` of the arguments.
-/
import proofs.«160662_j58875411694167_1_alg».proof.Proof.Gen.KernelIdeal.Value
import proofs.«160662_j58875411694167_1_alg».proof.Proof.RbfPayload

noncomputable section

open scoped BigOperators

namespace Cert.KernelIdeal.RbfValue

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices of the five windows at every grid point, decided over the 32 points: the input and the result
    move with the point along the rows; the centres, widths and weights stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result array as the specification of the argument arrays as the region finds them. -/
abbrev result (c : Dev nD) : S131072x1.Idx → EReal :=
  Rbf.G (V m c main_arg0) (V m c main_arg1) (V m c main_arg2) (V m c main_arg3)

/-- The centres' one block is the whole array. -/
theorem centres_block (c : Dev nD) (t : Fin cfg0.N) : (iblk m c 1 t : FVec Ideal S512x64 .f32) = V m c main_arg2 := by
  obtain ⟨-, -, e0, e1, -⟩ := block_indices t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- The widths' one block is the whole array. -/
theorem widths_block (c : Dev nD) (t : Fin cfg0.N) : (iblk m c 2 t : FVec Ideal S512x1 .f32) = V m c main_arg3 := by
  obtain ⟨-, -, -, -, e0, e1, -⟩ := block_indices t
  funext y
  show V m c main_arg3 (((cfg0.win 2).blk t).view.emb y) = V m c main_arg3 y
  refine congrArg (V m c main_arg3) (funext fun a => Fin.ext ?_)
  match a with
  | ⟨0, _⟩ => show win0_2.index t (0 : Fin 2) * 512 + 1 * (y 0).val = (y 0).val; omega
  | ⟨1, _⟩ => show win0_2.index t (1 : Fin 2) * 1 + 1 * (y 1).val = (y 1).val; omega

/-- The weights' one block is the whole array. -/
theorem weights_block (c : Dev nD) (t : Fin cfg0.N) : (iblk m c 3 t : FVec Ideal S513x1 .f32) = V m c main_arg1 := by
  obtain ⟨-, -, -, -, -, -, e0, e1, -⟩ := block_indices t
  funext y
  show V m c main_arg1 (((cfg0.win 3).blk t).view.emb y) = V m c main_arg1 y
  refine congrArg (V m c main_arg1) (funext fun a => Fin.ext ?_)
  match a with
  | ⟨0, _⟩ => show win0_3.index t (0 : Fin 2) * 513 + 1 * (y 0).val = (y 0).val; omega
  | ⟨1, _⟩ => show win0_3.index t (1 : Fin 2) * 1 + 1 * (y 1).val = (y 1).val; omega

/-- Row p of the input's block at point t is row 4096·t + p of the input: the row the result's block at t has at p. -/
theorem input_block_row (c : Dev nD) (t : Fin cfg0.N) (p : Fin 4096) (u : Fin 1) (k : Fin 64) :
    (iblk m c 0 t : FVec Ideal S4096x64 .f32) (ix2 p k)
      = V m c main_arg0 (ix2 ((((cfg0.win 4).blk t).view.emb (ix2 p u) : S131072x1.Idx) 0) k) := by
  obtain ⟨e0, e1, -, -, -, -, -, -, e8, -⟩ := block_indices t
  show V m c main_arg0 (((cfg0.win 0).blk t).view.emb (ix2 p k)) = _
  refine congrArg (V m c main_arg0) (funext fun a => Fin.ext ?_)
  match a with
  | ⟨0, _⟩ => show win0_0.index t (0 : Fin 2) * 4096 + 1 * p.val = win0_4.index t (0 : Fin 2) * 4096 + 1 * p.val; omega
  | ⟨1, _⟩ => show win0_0.index t (1 : Fin 2) * 64 + 1 * k.val = k.val; omega

/-- WHAT POINT t WRITES BACK is block t of the specification of the argument arrays. -/
theorem flushed_eq (c : Dev nD) (t : Fin cfg0.N) :
    (dats m 0 c).flushed 4 t = ((cfg0.win 4).blk t).view.read (Elt Ideal) (result m c) := by
  rw [flushed4]
  unfold out0_4
  rw [View.canon_unit_zero zero_offsets]
  simp only [View.ld_unit_zero (S := S4096x64) zero_offsets, View.ld_unit_zero (S := S512x64) zero_offsets,
    View.ld_unit_zero (S := S512x1) zero_offsets, View.ld_unit_zero (S := S513x1) zero_offsets]
  funext j
  obtain ⟨p, u, rfl⟩ : ∃ (p : Fin 4096) (u : Fin 1), j = ix2 p u := ⟨j 0, j 1, eq_ix2 j⟩
  show k0_pay1 (F := Ideal) (iblk m c 0 t) (iblk m c 1 t) (iblk m c 2 t) (iblk m c 3 t) (ix2 p u)
    = result m c (((cfg0.win 4).blk t).view.emb (ix2 p u))
  refine (pay_apply (iblk m c 0 t) (iblk m c 1 t) (iblk m c 2 t) (iblk m c 3 t) p u).trans ?_
  rw [centres_block, widths_block, weights_block]
  show Rbf.rowOut _ (V m c main_arg2) (V m c main_arg3) (V m c main_arg1) = Rbf.rowOut _ (V m c main_arg2) (V m c main_arg3) (V m c main_arg1)
  exact congrArg (fun xr => Rbf.rowOut xr (V m c main_arg2) (V m c main_arg3) (V m c main_arg1))
    (funext fun k => input_block_row m c t p u k)

/-- An index of the result is in point t's block iff its row is among the block's 4096 rows. -/
theorem mem_block (t : Fin cfg0.N) (i : S131072x1.Idx) :
    i ∈ ((cfg0.win 4).blk t).view.set ↔ ∀ a : Fin 2, win0_4.index t a * S4096x1.size a ≤ (i a).val ∧ (i a).val < win0_4.index t a * S4096x1.size a + S4096x1.size a := by
  show i ∈ ((View.whole main_v0).slice (win0_4.rect t)).set ↔ _
  rw [View.set_slice_whole, Rect.mem_set_unit]
  exact Iff.rfl

/-- Every row of the result is in the block of the point its row number divided by 4096 names. -/
theorem covered (i : S131072x1.Idx) : ∃ t : Fin cfg0.N, (cfg0.win 4).flush t = true ∧ i ∈ ((cfg0.win 4).blk t).view.set := by
  have hN : cfg0.N = 32 := N_0
  have hi0 : (i 0).val < 131072 := (i 0).isLt
  have hi1 : (i 1).val < 1 := (i 1).isLt
  refine ⟨⟨(i 0).val / 4096, by rw [hN]; omega⟩, flush0_4 _, ?_⟩
  rw [mem_block]
  obtain ⟨-, -, -, -, -, -, -, -, e8, e9⟩ := block_indices ⟨(i 0).val / 4096, by rw [hN]; omega⟩
  intro a
  match a with
  | ⟨0, _⟩ =>
    show win0_4.index _ (0 : Fin 2) * 4096 ≤ (i 0).val ∧ (i 0).val < win0_4.index _ (0 : Fin 2) * 4096 + 4096
    rw [e8]; show (i 0).val / 4096 * 4096 ≤ (i 0).val ∧ (i 0).val < (i 0).val / 4096 * 4096 + 4096; omega
  | ⟨1, _⟩ =>
    show win0_4.index _ (1 : Fin 2) * 1 ≤ (i 1).val ∧ (i 1).val < win0_4.index _ (1 : Fin 2) * 1 + 1
    rw [e9]; omega

/-- THE RESULT ARRAY after the run is the specification of the argument arrays. -/
theorem final (c : Dev nD) : (dats m 0 c).arrAt 4 cfg0.N
    = Rbf.G (m ((c : Thread nD τ).loc main_arg0)) (m ((c : Thread nD τ).loc main_arg1)) (m ((c : Thread nD τ).loc main_arg2)) (m ((c : Thread nD τ).loc main_arg3)) :=
  (dats m 0 c).arrAt_eq_of_cover 4 (result m c) (fun t _ => flushed_eq m c t) covered

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = Rbf.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.RbfValue

end
-- ==== Proof.RbfReference.lean ====
/-
  The reference's result, stage by stage, is the specification `Rbf.G` of its arguments.

  The reference computes, on whole arrays: the row norms Σ_k x[n,k]² and centre norms Σ_k c[h,k]², each a sum from
  the initial value 0; their outer sum; the inner products x · cᵀ as one matrix product; the squared distance
  (norms − 2 · inner products); its negation; twice the squared widths as a row; the quotient; its exponential; the
  product of that with the first 512 weights; plus the last weight. Read at an entry (n, h), resp. (n, ·), each stage
  is the corresponding term of the specification: the sums start from 0 and 0 + s = s, the index functions of the
  layout operations are the evident coordinates.
-/
import proofs.«160662_j58875411694167_1_alg».proof.Proof.Gen.ReferenceIdeal.Read
import proofs.«160662_j58875411694167_1_alg».proof.Proof.RbfSpec

noncomputable section

open scoped BigOperators

namespace Cert.ReferenceIdeal.RbfRef

open Cert.ReferenceIdeal Cert.ReferenceIdeal.Read Idealize.ShloMosaic Idealize.ShloMosaic.ValueIdx

/-- A rank-2 index is the pair of its coordinates. -/
theorem idx2_eq {n0 n1 : Nat} (j : (⟨2, ![n0, n1]⟩ : Shape).Idx) (a : Fin n0) (b : Fin n1)
    (h0 : (j 0).val = a.val) (h1 : (j 1).val = b.val) : j = ix2 a b := by
  funext d
  apply Fin.ext
  match d with
  | ⟨0, _⟩ => exact h0
  | ⟨1, _⟩ => exact h1

/-- The row norms, spread along the rows, at (n, h): the square norm of row n. -/
theorem rowNorm_ref (x0 : FVec Ideal S131072x64 .f32) (n : Fin 131072) (h : Fin 512) :
    val_main_v6 (F := Ideal) x0 (ix2 n h) = ∑ k : Fin 64, x0 (ix2 n k) * x0 (ix2 n k) := by
  rw [val_main_v6_apply, val_main_v2_apply, val_main_v1_apply]
  show Ideal.ofBits .f32 0x00000000#32 + ∑ k : Fin 64, _ = _
  rw [Ideal.ofBits_zero_f32, zero_add]
  refine Finset.sum_congr rfl fun k _ => ?_
  rw [val_main_v0_apply, idx2_eq (idx_main_v1 (idx_main_v2 (idx_main_v6 (ix2 n h))) k) n k rfl rfl]
  rfl

/-- The centre norms, as a row spread down the rows, at (n, h): the square norm of centre h. -/
theorem centreNorm_ref (x2 : FVec Ideal S512x64 .f32) (n : Fin 131072) (h : Fin 512) :
    val_main_v7 (F := Ideal) x2 (ix2 n h) = ∑ k : Fin 64, x2 (ix2 h k) * x2 (ix2 h k) := by
  rw [val_main_v7_apply, val_main_v5_apply, val_main_v4_apply]
  show Ideal.ofBits .f32 0x00000000#32 + ∑ k : Fin 64, _ = _
  rw [Ideal.ofBits_zero_f32, zero_add]
  refine Finset.sum_congr rfl fun k _ => ?_
  rw [val_main_v3_apply, idx2_eq (idx_main_v4 (idx_main_v5 (idx_main_v7 (ix2 n h))) k) h k rfl rfl]
  rfl

/-- The matrix product of the input with the transposed centres at (n, h): the inner product of row n with centre h. -/
theorem inner_ref (x0 : FVec Ideal S131072x64 .f32) (x2 : FVec Ideal S512x64 .f32) (n : Fin 131072) (h : Fin 512) :
    val_main_v10 (F := Ideal) x0 x2 (ix2 n h) = ∑ k : Fin 64, x0 (ix2 n k) * x2 (ix2 h k) := by
  rw [val_main_v10_apply]
  refine Finset.sum_congr rfl fun k _ => ?_
  rw [val_main_v9_apply, idx2_eq (lidx_main_v10 (ix2 n h) k) n k rfl rfl,
    idx2_eq (idx_main_v9 (ridx_main_v10 (ix2 n h) k)) h k rfl rfl]

/-- Twice the squared widths, as a row spread down the rows, at (n, h). -/
theorem width_ref (x3 : FVec Ideal S512x1 .f32) (n : Fin 131072) (h : Fin 512) :
    val_main_v20 (F := Ideal) x3 (ix2 n h) = Rbf.two * (x3 (ix2 h 0) * x3 (ix2 h 0)) := by
  rw [val_main_v20_apply, val_main_v19_apply, val_main_v18_apply, val_main_v17_apply, val_main_v16_apply, val_main_v15_apply,
    idx2_eq (idx_main_v15 (idx_main_v17 (idx_main_v20 (ix2 n h)))) h (0 : Fin 1) (Nat.div_one _) rfl]
  rfl

/-- The Gaussian weights at (n, h). -/
theorem weight_ref (x0 : FVec Ideal S131072x64 .f32) (x2 : FVec Ideal S512x64 .f32) (x3 : FVec Ideal S512x1 .f32)
    (n : Fin 131072) (h : Fin 512) :
    val_main_v22 (F := Ideal) x0 x2 x3 (ix2 n h) = Rbf.phi (fun k => x0 (ix2 n k)) x2 x3 h := by
  show Ideal.exp (Ideal.div (-((val_main_v6 (F := Ideal) x0 (ix2 n h) + val_main_v7 (F := Ideal) x2 (ix2 n h))
    - val_main_v11 (F := Ideal) (ix2 n h) * val_main_v10 (F := Ideal) x0 x2 (ix2 n h))) (val_main_v20 (F := Ideal) x3 (ix2 n h))) = _
  rw [rowNorm_ref, centreNorm_ref, inner_ref, width_ref, val_main_v11_apply]
  rfl

/-- THE REFERENCE IS THE SPECIFICATION: its last stage, as a function of the four arguments, is `Rbf.G`. -/
theorem result_eq (x0 : FVec Ideal S131072x64 .f32) (x1 : FVec Ideal S513x1 .f32) (x2 : FVec Ideal S512x64 .f32)
    (x3 : FVec Ideal S512x1 .f32) :
    val_main_v27 (F := Ideal) x0 x1 x2 x3 = Rbf.G x0 x1 x2 x3 := by
  funext i
  obtain ⟨n, u, rfl⟩ : ∃ (n : Fin 131072) (u : Fin 1), i = ix2 n u := ⟨i 0, i 1, eq_ix2 i⟩
  have hu : u = 0 := Subsingleton.elim _ _
  subst hu
  show val_main_v24 (F := Ideal) x0 x1 x2 x3 (ix2 n 0) + val_main_v26 (F := Ideal) x1 (ix2 n 0) = _
  unfold Rbf.G Rbf.rowOut
  refine congrArg₂ (· + ·) ?_ ?_
  · rw [val_main_v24_apply]
    refine Finset.sum_congr rfl fun h _ => ?_
    rw [idx2_eq (lidx_main_v24 (ix2 n 0) h) n h rfl rfl, weight_ref, val_main_v23_apply,
      idx2_eq (idx_main_v23 (ridx_main_v24 (ix2 n 0) h)) (⟨h.val, Nat.lt_succ_of_lt h.isLt⟩ : Fin 513) (0 : Fin 1) rfl rfl]
  · rw [val_main_v26_apply, val_main_v25_apply,
      idx2_eq (idx_main_v25 (idx_main_v26 (ix2 n 0))) (⟨512, Nat.lt_succ_self 512⟩ : Fin 513) (0 : Fin 1) rfl rfl]

end Cert.ReferenceIdeal.RbfRef

end
-- ==== Proof.lean ====
/-
  A radial-basis layer against its plain formula, over the extended reals.

  Inputs: x (131072 rows of 64 features), weights w (512 and a bias), centres c (512 rows of 64), widths σ (512).
  Both programs compute, for every row n,

      y_n = Σ_h exp( -(‖x_n‖² + ‖c_h‖² - 2·⟨x_n, c_h⟩) / (2·σ_h²) ) · w_h + w_512 ,

  the squared distance of the row from each centre written by expansion (RbfSpec: `Rbf.G`).

  The kernel walks the rows in 32 blocks of 4096, holding the centres, widths and weights whole. On a block it forms
  the 4096 × 512 tile of inner products by a matrix product, the row and centre norms by lane sums, the tile of Gaussian
  weights from them, and the product of that tile with the weights; it negates by subtracting from zero and narrows
  the operands of both products, which is the identity over the reals. The reference does the same on whole arrays with
  one matrix product of the input by the transposed centres and one of the weights' tile by the weight column.
  No law beyond 0 − y = −y and 0 + s = s joins the two, so finiteness of the inputs is never used.

    * RbfPieces, RbfPayload: the kernel body's stored column at an entry is the row's output.
    * RbfBlocks: what each grid point writes back is its block of `Rbf.G`; the blocks cover the result.
    * RbfReference: the reference's last stage is `Rbf.G`.
    * Here: the five claims.
-/
import proofs.«160662_j58875411694167_1_alg».proof.Defs
import proofs.«160662_j58875411694167_1_alg».proof.Proof.Gen.Kernel
import proofs.«160662_j58875411694167_1_alg».proof.Proof.Gen.Kernel.Skeleton
import proofs.«160662_j58875411694167_1_alg».proof.Proof.Gen.Kernel.Launch
import proofs.«160662_j58875411694167_1_alg».proof.Proof.Gen.Kernel.Points
import proofs.«160662_j58875411694167_1_alg».proof.Proof.Gen.Kernel.Frame
import proofs.«160662_j58875411694167_1_alg».proof.Proof.Gen.KernelIdeal
import proofs.«160662_j58875411694167_1_alg».proof.Proof.Gen.KernelIdeal.Skeleton
import proofs.«160662_j58875411694167_1_alg».proof.Proof.Gen.KernelIdeal.Launch
import proofs.«160662_j58875411694167_1_alg».proof.Proof.Gen.KernelIdeal.Points
import proofs.«160662_j58875411694167_1_alg».proof.Proof.Gen.KernelIdeal.Frame
import proofs.«160662_j58875411694167_1_alg».proof.Proof.Gen.ReferenceIdeal
import proofs.«160662_j58875411694167_1_alg».proof.Proof.Gen.Pre_finite_inputs
import proofs.«160662_j58875411694167_1_alg».proof.Proof.Gen.KernelIdeal.Value
import proofs.«160662_j58875411694167_1_alg».proof.Proof.Gen.ReferenceIdeal.Run
import proofs.«160662_j58875411694167_1_alg».proof.Proof.Gen.ReferenceIdeal.Read
import proofs.«160662_j58875411694167_1_alg».proof.Proof.RbfBlocks
import proofs.«160662_j58875411694167_1_alg».proof.Proof.RbfReference
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at
    `Rbf.G` of the arguments. -/
theorem algebraic : Cert.algebraic_KernelIdeal_ReferenceIdeal := by
  intro m ρ m' ρ' _ hagree
  refine ⟨fun c => Rbf.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RbfRef.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
